-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x1024 .f32) (main_arg1 : FVec F S4096x1024 .f32) (main_arg2 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x1024 : Shape := ⟨2, ![4096, 1024]⟩
abbrev S4096 : Shape := ⟨1, ![4096]⟩
abbrev S4096x4096 : Shape := ⟨2, ![4096, 4096]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .f32⟩
  | .hbm, ⟨3, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bitsLt_bf16_f32 : FTy.bits .bf16 < FTy.bits .f32
  transposes_S1024x1024_p1_0_S1024x1024 : S1024x1024.Transposes [1, 0] S1024x1024
  shapeCasts_S1024_S1x1024 : S1024.ShapeCasts S1x1024
  broadcasts_S1024x1_S1024x1024 : S1024x1.Broadcasts S1024x1024
  broadcasts_S1x1024_S1024x1024 : S1x1024.Broadcasts S1024x1024
  inb_S1024_S1024_0 : ∀ a, (![0] : Fin 1 → Nat) a + S1024.size a ≤ S1024.size a
  h_S1024 : 0 < S1024.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S4096x4096 : Shape := ⟨2, ![4096, 4096]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Spec.lean ====
/-
  The score matrix both programs compute, as one function of the three argument arrays.

  For a query row r of x and a stored row o of w (both of length 1024) the score is minus the mean squared
  distance plus a bias:   score r o = -(|x_r|^2 + |w_o|^2 - 2 (x_r . w_o)) * 2^-10 + bias o,
  the squared distance expanded into the two squared norms and the inner product, each a sum over the 1024
  columns, and the mean over 1024 columns taken as a product with 2^-10. The constants 2.0 and 2^-10 are kept as
  their f32 patterns: both programs spell the same words, so they are never evaluated here.
-/
import Idealize.ShloMosaic.PureOps.Ideal
import Idealize.ShloMosaic.Lib.ValueIdx

noncomputable section

namespace Cert.Knn

open Idealize.ShloMosaic Idealize.ShloMosaic.ValueIdx

/-- The score from its four ingredients: the query's squared norm, the stored row's squared norm, their inner
    product, and the stored row's bias. -/
def combine (xx ww xw bias : EReal) : EReal :=
  -(xx + ww - Ideal.ofBits .f32 0x40000000#32 * xw) * Ideal.ofBits .f32 0x3A800000#32 + bias

/-- The whole 4096 x 4096 score matrix of the argument arrays, entry by entry. -/
def score (x w : (⟨2, ![4096, 1024]⟩ : Shape).Idx → EReal) (b : (⟨1, ![4096]⟩ : Shape).Idx → EReal) :
    (⟨2, ![4096, 4096]⟩ : Shape).Idx → EReal := fun i =>
  combine (∑ k : Fin 1024, x (ix2 (i 0) k) * x (ix2 (i 0) k))
    (∑ k : Fin 1024, w (ix2 (i 1) k) * w (ix2 (i 1) k))
    (∑ k : Fin 1024, x (ix2 (i 0) k) * w (ix2 (i 1) k))
    (b (ix1 (i 1)))

end Cert.Knn

end
-- ==== Proof.Payload.lean ====
/-
  One grid point's body, read at one entry of its 1024 x 1024 output block.

  The body loads a block x of 1024 query rows, a block w of 1024 stored rows (both 1024 columns wide) and the
  1024 biases of those stored rows. Entry (p, q) of what it stores is
      -(|x_p|^2 + |w_q|^2 - 2 (x_p . w_q)) * 2^-10 + bias q :
  the two squared norms are lane sums of the squared blocks, the first kept as a column and spread over the
  columns, the second laid as a row and spread over the rows; the inner products come from the matrix unit
  applied to x and the transpose of w (the narrowing to bf16 before it is the identity on exact values), into a
  zero accumulator; the negation is a subtraction from zero.
-/
import proofs.«152336_j53008486367424_1_alg».proof.Proof.Gen.KernelIdeal.Skeleton
import proofs.«152336_j53008486367424_1_alg».proof.Proof.LibColumn
import proofs.«152336_j53008486367424_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Knn.Body

open Cert.KernelIdeal Cert.KernelIdeal.Gen Idealize.ShloMosaic Idealize.ShloMosaic.ValueIdx

/-! ## A lane sum at a row -/

/-- Summing a 1024 x 1024 block along its columns leaves, at row p, the sum of that row's 1024 entries. -/
theorem rowSum_apply (y : FVec Ideal S1024x1024 .f32) (p : Fin 1024) :
    multiReduction (F := Ideal) .add [1] S1024 y 0x00000000#32 reduces_S1024x1024_S1024 (.inl rfl) rfl (ix1 p)
      = ∑ k : Fin 1024, y (ix2 p k) := by
  refine (Ideal.multiReduction_add_single y 0x00000000#32 reduces_S1024x1024_S1024 (.inl rfl) rfl (ix1 p)).trans ?_
  refine Finset.sum_congr rfl fun k _ => congrArg y (funext fun a => Fin.ext ?_)
  match a with
  | ⟨0, _⟩ => rfl
  | ⟨1, _⟩ => rfl

/-! ## The matrix product at an entry -/

/-- The product's left operand is read at (row of the output, contraction position). -/
theorem lhs_0 (i : S1024x1024.Idx) (r : dot_S1024x1024_S1024x1024_S1024x1024_1_0_0_1_n_n.contr.Idx) :
    (dot_S1024x1024_S1024x1024_S1024x1024_1_0_0_1_n_n.lhsIdx i r 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_1 (i : S1024x1024.Idx) (r : dot_S1024x1024_S1024x1024_S1024x1024_1_0_0_1_n_n.contr.Idx) :
    (dot_S1024x1024_S1024x1024_S1024x1024_1_0_0_1_n_n.lhsIdx i r 1).val = (r ⟨0, by decide⟩).val :=
  dot_S1024x1024_S1024x1024_S1024x1024_1_0_0_1_n_n.lhsIdx_val_of_single rfl i r
/-- The right operand is read at (contraction position, column of the output). -/
theorem rhs_0 (i : S1024x1024.Idx) (r : dot_S1024x1024_S1024x1024_S1024x1024_1_0_0_1_n_n.contr.Idx) :
    (dot_S1024x1024_S1024x1024_S1024x1024_1_0_0_1_n_n.rhsIdx i r 0).val = (r ⟨0, by decide⟩).val :=
  dot_S1024x1024_S1024x1024_S1024x1024_1_0_0_1_n_n.rhsIdx_val_of_single rfl i r
theorem rhs_1 (i : S1024x1024.Idx) (r : dot_S1024x1024_S1024x1024_S1024x1024_1_0_0_1_n_n.contr.Idx) :
    (dot_S1024x1024_S1024x1024_S1024x1024_1_0_0_1_n_n.rhsIdx i r 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Into a zero accumulator the matrix unit, given a and the transpose of b, leaves at (p, q) the sum over the
    1024 contraction positions of a's row p times b's row q: the inner product of the two rows. -/
theorem prod_apply (a b : FVec Ideal S1024x1024 .bf16) (p q : Fin 1024) :
    matmul (F := Ideal) dot_S1024x1024_S1024x1024_S1024x1024_1_0_0_1_n_n none a
        (transpose S1024x1024 [1, 0] b transposes_S1024x1024_p1_0_S1024x1024) (constant S1024x1024 .f32 0x00000000#32) (ix2 p q)
      = ∑ k : Fin 1024, a (ix2 p k) * b (ix2 q k) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]
  exact congrArg (a (ix2 p k) * ·) (transpose_ix2_apply b transposes_S1024x1024_p1_0_S1024x1024 k q)

/-! ## The stored value at an entry -/

theorem pay_apply (x0 x1 : FVec Ideal S1024x1024 .f32) (x2 : FVec Ideal S1024 .f32) (p q : Fin 1024) :
    k0_pay1 (F := Ideal) x0 x1 x2 (ix2 p q)
      = combine (∑ k : Fin 1024, x0 (ix2 p k) * x0 (ix2 p k)) (∑ k : Fin 1024, x1 (ix2 q k) * x1 (ix2 q k))
          (∑ k : Fin 1024, x0 (ix2 p k) * x1 (ix2 q k)) (x2 (ix1 q)) := by
  unfold k0_pay1 combine
  simp only [addf_apply, subf_apply, mulf_apply, broadcast_apply]
  rw [Cert.LibColumn.broadcastTo_column_apply, broadcastTo_1b_ab_apply, shapeCast_a_1a_apply, broadcastTo_1b_ab_apply,
    shapeCast_a_1a_apply, rowSum_apply, rowSum_apply, prod_apply]
  simp only [mulf_apply, truncf_apply, Ideal.ofBits_def, Ideal.ofBits_zero_f32, zero_sub]

end Cert.Knn.Body

end
-- ==== Proof.ScoreArray.lean ====
/-
  From the blocks to the whole array: after the kernel's run the output array is the score matrix.

  The grid is 4 x 4. Point (i, j) reads rows [1024 i, 1024 i + 1024) of x, rows [1024 j, 1024 j + 1024) of w and the
  same range of the bias, and writes the 1024 x 1024 block (i, j) of the output. So entry (p, q) of what it
  writes is the score of query row 1024 i + p against stored row 1024 j + q: the block is a restriction of the one
  score matrix. Every entry (r, o) of the array lies in the block of the point (r / 1024, o / 1024), so the
  sixteen blocks fill the array.
-/
import proofs.«152336_j53008486367424_1_alg».proof.Proof.Gen.KernelIdeal.Value
import proofs.«152336_j53008486367424_1_alg».proof.Proof.Payload
import proofs.«152336_j53008486367424_1_alg».proof.Proof.Spec
import Idealize.ShloMosaic.Lib.Pipeline.Value
import Idealize.ShloMosaic.Lib.ValueIdx

noncomputable section

namespace Cert.Knn.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets2_zero : (![0, 0] : Fin 2 → Nat) = fun _ => 0 := funext fun a => by fin_cases a <;> rfl
theorem offsets1_zero : (![0] : Fin 1 → Nat) = fun _ => 0 := funext fun a => by fin_cases a <;> rfl

/-! ## One point's block is a restriction of the score matrix -/

/-- If the three loaded blocks are the rows bi, the rows bj and the biases bj of the arrays (in units of 1024),
    the stored value at (p, q) is the score matrix at (1024 bi + p, 1024 bj + q). -/
theorem point_eq (X W : FVec Ideal S4096x1024 .f32) (B : FVec Ideal S4096 .f32)
    (x0 x1 : FVec Ideal S1024x1024 .f32) (x2 : FVec Ideal S1024 .f32) (i : S4096x4096.Idx) (p q : Fin 1024)
    (hx : ∀ k : Fin 1024, x0 (ix2 p k) = X (ix2 (i 0) k))
    (hw : ∀ k : Fin 1024, x1 (ix2 q k) = W (ix2 (i 1) k))
    (hb : x2 (ix1 q) = B (ix1 (i 1))) :
    k0_pay1 (F := Ideal) x0 x1 x2 (ix2 p q) = score X W B i := by
  rw [Body.pay_apply]
  unfold score
  simp only [hx, hw, hb]

/-- The index maps, decided over the sixteen points: the x window follows the output's block row, the w and
    bias windows its block column, and the x and w windows always sit at block column 0. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 1) = win0_3.index t (1 : Fin 2) :=
  (by decide +kernel : ∀ t : Fin grid0.N, _)

/-- Every one of the 4 x 4 output blocks is some point's. -/
theorem idx_onto : ∀ (q0 q1 : Fin 4), ∃ t : Fin cfg0.N, win0_3.index t = ![q0.val, q1.val] :=
  (by decide +kernel : ∀ (q0 q1 : Fin 4), ∃ t : Fin grid0.N, win0_3.index t = ![q0.val, q1.val])

/-- What point t writes back is block t of the score matrix of the arrays as the region finds them. -/
theorem flushed_eq (c : Dev nD) (t : Fin cfg0.N) :
    (dats m 0 c).flushed 3 t
      = ((cfg0.win 3).blk t).view.read (Elt Ideal) (score (V m c main_arg0) (V m c main_arg1) (V m c main_arg2)) := by
  rw [Cert.KernelIdeal.Value.flushed3]
  unfold out0_3
  rw [View.canon_unit_zero offsets2_zero]
  simp only [View.ld_unit_zero (S := S1024x1024) offsets2_zero, View.ld_unit_zero (S := S1024) offsets1_zero]
  obtain ⟨e0, e1, e2, e3, e4⟩ := idx_facts t
  funext j
  show k0_pay1 (F := Ideal) (iblk m c 0 t) (iblk m c 1 t) (iblk m c 2 t) j
      = score (V m c main_arg0) (V m c main_arg1) (V m c main_arg2) (((cfg0.win 3).blk t).view.emb j)
  obtain ⟨p, q, rfl⟩ : ∃ (p q : Fin 1024), j = ix2 p q := ⟨j 0, j 1, eq_ix2 j⟩
  refine point_eq (V m c main_arg0) (V m c main_arg1) (V m c main_arg2) (iblk m c 0 t) (iblk m c 1 t) (iblk m c 2 t)
    (((cfg0.win 3).blk t).view.emb (ix2 p q)) p q (fun k => ?_) (fun k => ?_) ?_
  · show V m c main_arg0 (((cfg0.win 0).blk t).view.emb (ix2 p k))
        = V m c main_arg0 (ix2 ((((cfg0.win 3).blk t).view.emb (ix2 p q)) 0) k)
    refine congrArg (V m c main_arg0) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * k.val = k.val; omega
  · show V m c main_arg1 (((cfg0.win 1).blk t).view.emb (ix2 q k))
        = V m c main_arg1 (ix2 ((((cfg0.win 3).blk t).view.emb (ix2 p q)) 1) k)
    refine congrArg (V m c main_arg1) (funext fun a => Fin.ext ?_)
    match a with
    | ⟨0, _⟩ => show win0_1.index t (0 : Fin 2) * 1024 + 1 * q.val = win0_3.index t (1 : Fin 2) * 1024 + 1 * q.val; omega
    | ⟨1, _⟩ => show win0_1.index t (1 : Fin 2) * 1024 + 1 * k.val = k.val; omega
  · show V m c main_arg2 (((cfg0.win 2).blk t).view.emb (ix1 q))
        = V m c main_arg2 (ix1 ((((cfg0.win 3).blk t).view.emb (ix2 p q)) 1))
    refine congrArg (V m c main_arg2) (funext fun a => Fin.ext ?_)
    match a with
    | ⟨0, _⟩ => show win0_2.index t (0 : Fin 1) * 1024 + 1 * q.val = win0_3.index t (1 : Fin 2) * 1024 + 1 * q.val; omega

/-! ## The sixteen blocks fill the array -/

/-- An entry lies in point t's block iff each coordinate lies in the block's range on its axis. -/
theorem mem_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0).slice (win0_3.rect t)).set ↔ _
  rw [View.set_slice_whole, Rect.mem_set_unit]
  exact Iff.rfl

/-- Entry (r, o) lies in the block of the point whose output block is (r / 1024, o / 1024). -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-! ## The array after the run, and the run -/

/-- After the run the output array is the score matrix of the argument arrays. -/
theorem final (c : Dev nD) :
    (dats m 0 c).arrAt 3 cfg0.N
      = score (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the idealized kernel ends with the output array at the score matrix of the
    arguments, the arguments unchanged. -/
theorem run : θ_run defs (onTc (τ := τ) (main (F := Ideal))) ⟨m, fun _ => 0, ρ⟩ fun r => ∀ c : Dev nD,
      r.2.mem ((c : Thread nD τ).loc main_v0)
        = score (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Knn.Array

end
-- ==== Proof.Consts.lean ====
/-
  The two float constants by which the programs scale the squared distance, as the reals their patterns denote:
  the reference divides by 1024.0 = 2^10, the kernel multiplies by 9.765625e-4 = 2^-10. Both are exact binary
  values, so on every extended real the quotient by the first is the product with the second.
-/
import Idealize.ShloMosaic.PureOps.Ideal

noncomputable section

namespace Cert.Knn.Consts

open Idealize.ShloMosaic

/-- The pattern 0x44800000 (exponent field 137, zero fraction) denotes 2^10 = 1024. -/
theorem ofBits_1024 : Ideal.ofBits .f32 0x44800000#32 = ((1024 : ℝ) : EReal) := by
  simp [Ideal.ofBits, Ideal.ieee, -EReal.coe_mul]; norm_num

/-- The pattern 0x3A800000 (exponent field 117, zero fraction) denotes 2^-10 = 1/1024. -/
theorem ofBits_inv1024 : Ideal.ofBits .f32 0x3A800000#32 = ((1 / 1024 : ℝ) : EReal) := by
  simp [Ideal.ofBits, Ideal.ieee, -EReal.coe_mul]; norm_num

/-- Dividing by 1024.0 is multiplying by 2^-10, at the infinities too. -/
theorem div_1024 (s : EReal) :
    Ideal.div s (Ideal.ofBits .f32 0x44800000#32) = s * Ideal.ofBits .f32 0x3A800000#32 := by
  rw [ofBits_1024, ofBits_inv1024, Ideal.div_coe (by norm_num : (1024 : ℝ) ≠ 0)]

end Cert.Knn.Consts

end
-- ==== Proof.RefScore.lean ====
/-
  The reference program's result is the score matrix.

  The reference forms the two squared norms by summing the squared arrays along their rows, spreads the first
  down the columns and the second along the rows, takes all inner products in one contraction over the 1024
  columns, and returns  (-(|x_r|^2 + |w_o|^2 - 2 (x_r . w_o))) / 1024 + bias o.  Read at an entry this is the
  score, once each sum's zero initial value is dropped and the quotient by 1024 is written as the product with 2^-10.
-/
import proofs.«152336_j53008486367424_1_alg».proof.Proof.Gen.ReferenceIdeal.Read
import proofs.«152336_j53008486367424_1_alg».proof.Proof.Spec
import proofs.«152336_j53008486367424_1_alg».proof.Proof.Consts

noncomputable section

namespace Cert.Knn.Ref

open Cert.ReferenceIdeal Cert.ReferenceIdeal.Read Idealize.ShloMosaic Idealize.ShloMosaic.ValueIdx

theorem result_eq_score (x0 x1 : (⟨S4096x1024, .f32⟩ : BufTy).Contents (Elt Ideal))
    (x2 : (⟨S4096, .f32⟩ : BufTy).Contents (Elt Ideal)) :
    val_main_v18 (F := Ideal) x0 x1 x2 = score x0 x1 x2 := by
  funext i
  -- where each stage reads its operand, in the coordinates of the entry
  have exx : ∀ k : Fin 1024, idx_main_v1 (idx_main_v2 (idx_main_v7 i)) k = ix2 (i 0) k := fun k =>
    funext fun a => Fin.ext (by match a with | ⟨0, _⟩ => rfl | ⟨1, _⟩ => rfl)
  have eww : ∀ k : Fin 1024, idx_main_v4 (idx_main_v6 (idx_main_v8 i)) k = ix2 (i 1) k := fun k =>
    funext fun a => Fin.ext (by match a with | ⟨0, _⟩ => rfl | ⟨1, _⟩ => rfl)
  have el : ∀ k : Fin 1024, lidx_main_v5 i k = ix2 (i 0) k := fun k =>
    funext fun a => Fin.ext (by match a with | ⟨0, _⟩ => rfl | ⟨1, _⟩ => rfl)
  have er : ∀ k : Fin 1024, ridx_main_v5 i k = ix2 (i 1) k := fun k =>
    funext fun a => Fin.ext (by match a with | ⟨0, _⟩ => rfl | ⟨1, _⟩ => rfl)
  have eb : idx_main_v16 (idx_main_v17 i) = ix1 (i 1) :=
    funext fun a => Fin.ext (by match a with | ⟨0, _⟩ => rfl)
  rw [val_main_v18_apply, val_main_v15_apply, val_main_v13_apply, val_main_v12_apply, val_main_v9_apply,
    val_main_v7_apply, val_main_v2_apply, val_main_v1_apply, val_main_v8_apply, val_main_v6_apply, val_main_v4_apply,
    val_main_v11_apply, val_main_v10_apply, val_main_v5_apply, val_main_v14_apply, val_main_v17_apply,
    val_main_v16_apply]
  simp only [val_main_v0_apply, val_main_v3_apply, val_main_cst_apply, val_main_cst_0_apply, val_main_cst_1_apply,
    val_main_cst_2_apply, exx, eww, el, er, eb]
  simp only [val_main_v0, val_main_v3, mulf_apply, Ideal.ofBits_def, Ideal.addf_def, Ideal.subf_def, Ideal.mulf_def,
    Ideal.hostDivf_def, Ideal.hostNegf_def, Ideal.negf_def, Ideal.ofBits_zero_f32, zero_add, Consts.div_1024]
  rfl

end Cert.Knn.Ref

end
-- ==== Proof.lean ====
/-
  The kernel computes, for 4096 query rows x_r and 4096 stored rows w_o of length 1024, the score
      -(|x_r|^2 + |w_o|^2 - 2 (x_r . w_o)) * 2^-10 + bias o
  block by block over a 4 x 4 grid; the reference computes  (-(|x_r|^2 + |w_o|^2 - 2 (x_r . w_o))) / 1024 + bias o
  on whole arrays. Over the extended reals the two are one function of the arguments (Proof/Spec.lean's `score`):
  every sum is the same sum of the same products; the kernel's narrowing of its matrix operands is the identity
  on exact values; its negation `0 - d` is `-d`; and the quotient by 1024 = 2^10 is the product with the exact
  binary value 2^-10 (Proof/Consts.lean), at the infinities too, so no finiteness of the inputs is used.

  Proof/Payload.lean reads one grid point's stored block at an entry; Proof/ScoreArray.lean shows that block to
  be a restriction of `score` and that the sixteen blocks fill the output array; Proof/RefScore.lean reads the
  reference's result at an entry as `score`. The three frames are the generated runs. Nothing was rewritten by
  the idealization, so `preserves` has nothing to say.
-/
import proofs.«152336_j53008486367424_1_alg».proof.Defs
import proofs.«152336_j53008486367424_1_alg».proof.Proof.Gen.Kernel
import proofs.«152336_j53008486367424_1_alg».proof.Proof.Gen.Kernel.Skeleton
import proofs.«152336_j53008486367424_1_alg».proof.Proof.Gen.Kernel.Launch
import proofs.«152336_j53008486367424_1_alg».proof.Proof.Gen.Kernel.Points
import proofs.«152336_j53008486367424_1_alg».proof.Proof.Gen.Kernel.Frame
import proofs.«152336_j53008486367424_1_alg».proof.Proof.Gen.KernelIdeal
import proofs.«152336_j53008486367424_1_alg».proof.Proof.Gen.KernelIdeal.Skeleton
import proofs.«152336_j53008486367424_1_alg».proof.Proof.Gen.KernelIdeal.Launch
import proofs.«152336_j53008486367424_1_alg».proof.Proof.Gen.KernelIdeal.Points
import proofs.«152336_j53008486367424_1_alg».proof.Proof.Gen.KernelIdeal.Frame
import proofs.«152336_j53008486367424_1_alg».proof.Proof.Gen.ReferenceIdeal
import proofs.«152336_j53008486367424_1_alg».proof.Proof.Gen.Pre_finite_inputs
import proofs.«152336_j53008486367424_1_alg».proof.Proof.Gen.KernelIdeal.Value
import proofs.«152336_j53008486367424_1_alg».proof.Proof.Gen.ReferenceIdeal.Run
import proofs.«152336_j53008486367424_1_alg».proof.Proof.Gen.ReferenceIdeal.Read
import proofs.«152336_j53008486367424_1_alg».proof.Proof.ScoreArray
import proofs.«152336_j53008486367424_1_alg».proof.Proof.RefScore
import Idealize.ShloMosaic.Adequacy
import Idealize.ShloMosaic.Init

noncomputable section

namespace Cert.Proof

open Idealize.ShloMosaic Idealize.SL.Sem

/-- Both idealized programs, from memories that agree on the arguments, end with the score matrix of those
    arguments in their result. -/
theorem algebraic : Cert.algebraic_KernelIdeal_ReferenceIdeal := by
  intro m ρ m' ρ' _ hagree
  refine ⟨_, Cert.Knn.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Knn.Ref.result_eq_score, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
